-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S128x1024 : Shape := ⟨2, ![128, 1024]⟩
abbrev S128 : Shape := ⟨1, ![128]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S65536x1024 .f32) (main_arg1 : FVec F S65536x1024 .f32) (main_arg2 : FVec F S128x1024 .f32) (main_arg3 : FVec F S128 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S65536x1024 : Shape := ⟨2, ![65536, 1024]⟩
abbrev S128x1024 : Shape := ⟨2, ![128, 1024]⟩
abbrev S128 : Shape := ⟨1, ![128]⟩
abbrev S1024x128 : Shape := ⟨2, ![1024, 128]⟩
abbrev S65536 : Shape := ⟨1, ![65536]⟩
abbrev S1024x1024 : Shape := ⟨2, ![1024, 1024]⟩
abbrev S1024 : Shape := ⟨1, ![1024]⟩
abbrev S1x128 : Shape := ⟨2, ![1, 128]⟩

abbrev nBuf : Space → Nat
  | .hbm => 6
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S128x1024, .f32⟩
  | .hbm, ⟨3, _⟩ => ⟨S128, .f32⟩
  | .hbm, ⟨4, _⟩ => ⟨S1024x128, .f32⟩
  | .hbm, ⟨5, _⟩ => ⟨S65536, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x128, .f32⟩
  | .local _ .vmem, ⟨5, _⟩ => ⟨S128, .f32⟩
  | .local _ .vmem, ⟨6, _⟩ => ⟨S1024, .f32⟩
  | .local _ .vmem, ⟨7, _⟩ => ⟨S1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x1024_S1024x128_1_0 : S128x1024.Transposes [1, 0] S1024x128
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  reduces_S1024x128_S1024 : S1024x128.Reduces [1] S1024
  inb_S1024_S1024_0 : ∀ a, (![0] : Fin 1 → Nat) a + S1024.size a ≤ S1024.size a
  h_S1024 : 0 < S1024.numel
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .f32 = 32 ∨ (Rect.block (s := S65536x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S65536.size a
  hwx0_4 : ∀ i : grid0.Coords, EltTy.bits .f32 = 32 ∨ (Rect.block (s := S65536) S1024.size (cc0_transform_4 i) (hinb0_4 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S128x1024 : Shape := ⟨2, ![128, 1024]⟩
abbrev S128 : Shape := ⟨1, ![128]⟩
abbrev S1024x128 : Shape := ⟨2, ![1024, 128]⟩
abbrev S65536x128 : Shape := ⟨2, ![65536, 128]⟩
abbrev S1x128 : Shape := ⟨2, ![1, 128]⟩
abbrev S_ : Shape := ⟨0, ![]⟩
abbrev S65536 : Shape := ⟨1, ![65536]⟩

abbrev nBuf : Space → Nat
  | .hbm => 27
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S128x1024, .f32⟩
  | .hbm, ⟨3, _⟩ => ⟨S128, .f32⟩
  | .hbm, ⟨4, _⟩ => ⟨S1024x128, .f32⟩
  | .hbm, ⟨5, _⟩ => ⟨S65536x128, .f32⟩
  | .hbm, ⟨6, _⟩ => ⟨S1x128, .f32⟩
  | .hbm, ⟨7, _⟩ => ⟨S65536x128, .f32⟩
  | .hbm, ⟨8, _⟩ => ⟨S65536x128, .f32⟩
  | .hbm, ⟨9, _⟩ => ⟨S65536x128, .f32⟩
  | .hbm, ⟨10, _⟩ => ⟨S1024x128, .f32⟩
  | .hbm, ⟨11, _⟩ => ⟨S65536x128, .f32⟩
  | .hbm, ⟨12, _⟩ => ⟨S1x128, .f32⟩
  | .hbm, ⟨13, _⟩ => ⟨S65536x128, .f32⟩
  | .hbm, ⟨14, _⟩ => ⟨S65536x128, .f32⟩
  | .hbm, ⟨15, _⟩ => ⟨S65536x128, .f32⟩
  | .hbm, ⟨16, _⟩ => ⟨S65536x128, .f32⟩
  | .hbm, ⟨17, _⟩ => ⟨S_, .f32⟩
  | .hbm, ⟨18, _⟩ => ⟨S65536, .f32⟩
  | .hbm, ⟨19, _⟩ => ⟨S65536, .f32⟩
  | .hbm, ⟨20, _⟩ => ⟨S65536, .f32⟩
  | .hbm, ⟨21, _⟩ => ⟨S_, .f32⟩
  | .hbm, ⟨22, _⟩ => ⟨S65536, .f32⟩
  | .hbm, ⟨23, _⟩ => ⟨S65536, .f32⟩
  | .hbm, ⟨24, _⟩ => ⟨S_, .f32⟩
  | .hbm, ⟨25, _⟩ => ⟨S65536, .f32⟩
  | .hbm, ⟨26, _⟩ => ⟨S65536, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  transposes_S128x1024_S1024x128_1_0 : S128x1024.Transposes [1, 0] S1024x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  reducesTo_S65536x128_S65536_d1 : S65536x128.ReducesTo [1] S65536
  h_S_ : 0 < S_.numel
  bcast_S_S65536 : S_.BroadcastsInDim S65536 (![] : Fin 0 → Fin S65536.rank)
  dot_S65536x1024_S1024x128_S65536x128_1_0_0_1_n_n_wf : DotDims.WF S65536x1024 S1024x128 S65536x128 [1] [0] [0] [1] [] []

variable [Facts₀]

def dot_S65536x1024_S1024x128_S65536x128_1_0_0_1_n_n : DotDims S65536x1024 S1024x128 S65536x128 where
  lhsContracting := [1]
  rhsContracting := [0]
  lhsNonContracting := [0]
  rhsNonContracting := [1]
  lhsBatch := []
  rhsBatch := []
  wf := dot_S65536x1024_S1024x128_S65536x128_1_0_0_1_n_n_wf

class Facts : Prop extends Facts₀ where

variable [Facts]
-- ==== Proof.PairScore.lean ====
/-
  The function both programs compute, over the extended reals.

  Two batches of rows `x₁, x₂ : [65536, 1024]` pass through ONE linear layer `W : [128, 1024]`, `b : [128]` followed by `tanh`:
  `h(x) r j = tanh (∑ₖ x r k · W j k + b j)`. The score of row `r` is the logistic function of the inner product of its two
  hidden rows, `σ (∑ⱼ h(x₁) r j · h(x₂) r j)` with `σ s = 1 / (1 + e^(-s))`.

  Nothing here needs the inputs finite: both programs spell the same sums, the same `tanh` and the same `σ`, term by
  term, so the equality is structural and holds at the infinities too.
-/
import Idealize.ShloMosaic.PureOps.Ideal
import Idealize.ShloMosaic.Lib.ValueIdx

noncomputable section

open scoped BigOperators

namespace Cert.PairScore

open Idealize.ShloMosaic Idealize.ShloMosaic.ValueIdx

/-- Hidden unit `j` of row `r`: the row against row `j` of the weights, plus the bias, through `tanh`. -/
def hidden (x : (⟨2, ![65536, 1024]⟩ : Shape).Idx → EReal) (W : (⟨2, ![128, 1024]⟩ : Shape).Idx → EReal)
    (b : (⟨1, ![128]⟩ : Shape).Idx → EReal) (r : Fin 65536) (j : Fin 128) : EReal :=
  Ideal.tanh ((∑ k : Fin 1024, x (ix2 r k) * W (ix2 j k)) + b (ix1 j))

/-- The score of every row: the logistic function of the inner product of the row's two hidden vectors. -/
def score (x₁ x₂ : (⟨2, ![65536, 1024]⟩ : Shape).Idx → EReal) (W : (⟨2, ![128, 1024]⟩ : Shape).Idx → EReal)
    (b : (⟨1, ![128]⟩ : Shape).Idx → EReal) : (⟨1, ![65536]⟩ : Shape).Idx → EReal :=
  fun i => Ideal.logistic (∑ j : Fin 128, hidden x₁ W b (i 0) j * hidden x₂ W b (i 0) j)

end Cert.PairScore

end
-- ==== Proof.KernelRow.lean ====
/-
  What the kernel's body computes from the blocks it loads, read at one row.

  The body holds a block of 1024 rows of each batch, the whole transposed weight matrix `Wᵀ : [1024, 128]` and the bias.
  Over the extended reals the narrowing of the operands to bf16 is the identity, so each product into the zero accumulator
  is the plain sum `∑ₖ x p k · Wᵀ k j`; the bias row is broadcast over the block's rows; `tanh` and the product of the two
  hidden blocks act entry by entry; the lane reduction sums over the 128 hidden units; and the logistic function is applied
  to each row's sum. So row `p` of the stored block is `σ (∑ⱼ tanh (∑ₖ x₁ p k · Wᵀ k j + b j) · tanh (∑ₖ x₂ p k · Wᵀ k j + b j))`.
-/
import proofs.«127948_j88802743812576_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Row

open Cert.KernelIdeal Cert.KernelIdeal.Gen Idealize.ShloMosaic Idealize.ShloMosaic.ValueIdx

/-! ## The product's operand indices: (row, k) on the left, (k, column) on the right -/

theorem lhs_axis0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_axis1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_axis0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_axis1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- A block of 1024 rows times the transposed weights, accumulated into zero: entry `(p, j)` is the sum over the 1024
    input features of row `p` against column `j`. -/
theorem proj_apply (a : FVec Ideal S1024x1024 .bf16) (w : FVec Ideal S1024x128 .bf16) (p : Fin 1024) (j : Fin 128) :
    matmul dot_S1024x1024_S1024x128_S1024x128_1_0_0_1_n_n none a w (constant S1024x128 .f32 0x00000000#32) (ix2 p j)
      = ∑ k : Fin 1024, a (ix2 p k) * w (ix2 k j) := by
  simp only [matmul]
  rw [Ideal.matmul_constant_zero_apply, ← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 p j) ((contrEquiv1 dot_S1024x1024_S1024x128_S1024x128_1_0_0_1_n_n 1024 rfl rfl).symm k) = ix2 p k := funext fun ax => Fin.ext (by
    match ax with
    | ⟨0, _⟩ => exact lhs_axis0 _ _
    | ⟨1, _⟩ => exact (lhs_axis1 _ _).trans hk)
  have er : dot_S1024x1024_S1024x128_S1024x128_1_0_0_1_n_n.rhsIdx (ix2 p j) ((contrEquiv1 dot_S1024x1024_S1024x128_S1024x128_1_0_0_1_n_n 1024 rfl rfl).symm k) = ix2 k j := funext fun ax => Fin.ext (by
    match ax with
    | ⟨0, _⟩ => exact (rhs_axis0 _ _).trans hk
    | ⟨1, _⟩ => exact rhs_axis1 _ _)
  rw [el, er]

/-- The bias, viewed as one row and repeated over the block's rows, reads the bias of the entry's hidden unit. -/
theorem bias_apply (v : FVec Ideal S128 .f32) (p : Fin 1024) (j : Fin 128) :
    broadcastTo S1024x128 (shapeCast S1x128 v shapeCasts_S128_S1x128) broadcasts_S1x128_S1024x128 (ix2 p j) = v (ix1 j) :=
  (broadcastTo_1b_ab_apply _ broadcasts_S1x128_S1024x128 p j).trans (shapeCast_a_1a_apply v shapeCasts_S128_S1x128 0 j)

/-- Row `p` of the block the body stores: the logistic function of the inner product, over the 128 hidden units, of the
    row's two hidden vectors. -/
theorem pay_apply (x0 x1 : FVec Ideal S1024x1024 .f32) (x2 : FVec Ideal S1024x128 .f32) (x3 : FVec Ideal S128 .f32) (p : Fin 1024) :
    k0_pay1 (F := Ideal) x0 x1 x2 x3 (ix1 p)
      = Ideal.logistic (∑ j : Fin 128,
          Ideal.tanh ((∑ k : Fin 1024, x0 (ix2 p k) * x2 (ix2 k j)) + x3 (ix1 j))
            * Ideal.tanh ((∑ k : Fin 1024, x1 (ix2 p k) * x2 (ix2 k j)) + x3 (ix1 j))) := by
  unfold k0_pay1
  refine congrArg Ideal.logistic ?_
  refine (Ideal.multiReduction_add_single _ 0x00000000#32 reduces_S1024x128_S1024 (.inl rfl) rfl (ix1 p)).trans ?_
  show ∑ j : Fin 128, _ = _
  refine Finset.sum_congr rfl fun j _ => ?_
  have hl : reduces_S1024x128_S1024.lift (ix1 p) j = ix2 p j :=
    funext fun ax => Fin.ext (by match ax with | ⟨0, _⟩ => rfl | ⟨1, _⟩ => rfl)
  rw [hl]
  show FloatOps.mulf
      (FloatOps.tanh (FloatOps.addf (matmul dot_S1024x1024_S1024x128_S1024x128_1_0_0_1_n_n none _ _ _ (ix2 p j)) (broadcastTo S1024x128 _ _ (ix2 p j))))
      (FloatOps.tanh (FloatOps.addf (matmul dot_S1024x1024_S1024x128_S1024x128_1_0_0_1_n_n none _ _ _ (ix2 p j)) (broadcastTo S1024x128 _ _ (ix2 p j)))) = _
  rw [proj_apply, proj_apply, bias_apply]
  simp only [Ideal.mulf_def, Ideal.tanh_def, Ideal.addf_def, truncf, Ideal.truncf_def, shapeCast_self]

end Cert.KernelIdeal.Row

end
-- ==== Proof.RefScore.lean ====
/-
  The reference's result, stage by stage, is the score function.

  The reference transposes the weights, takes each batch's product with them (a sum over the 1024 input features), adds the
  bias broadcast over the rows, applies `tanh`, multiplies the two hidden arrays entry by entry, sums each row over the 128
  hidden units starting from zero, and finishes with `1 / (1 + e^(-s))`, which is the logistic function as the extended
  reals define it.
-/
import proofs.«127948_j88802743812576_1_alg».proof.Proof.Gen.ReferenceIdeal.Read
import proofs.«127948_j88802743812576_1_alg».proof.Proof.PairScore
import Idealize.ShloMosaic.Lib.IdealHost

noncomputable section

open scoped BigOperators

namespace Cert.ReferenceIdeal.Score

open Cert.ReferenceIdeal Cert.ReferenceIdeal.Gen Cert.ReferenceIdeal.Read Idealize.ShloMosaic Idealize.ShloMosaic.ValueIdx
open Cert.PairScore

/-! ## The stages' index maps at an entry `(r, j)` -/

theorem rows_first (r : Fin 65536) (j : Fin 128) (k : Fin 1024) : lidx_main_v1 (ix2 r j) k = ix2 r k :=
  funext fun a => Fin.ext (by match a with | ⟨0, _⟩ => rfl | ⟨1, _⟩ => rfl)
theorem weights_first (r : Fin 65536) (j : Fin 128) (k : Fin 1024) : idx_main_v0 (ridx_main_v1 (ix2 r j) k) = ix2 j k :=
  funext fun a => Fin.ext (by match a with | ⟨0, _⟩ => rfl | ⟨1, _⟩ => rfl)
theorem bias_first (r : Fin 65536) (j : Fin 128) : idx_main_v2 (idx_main_v3 (ix2 r j)) = ix1 j :=
  funext fun a => Fin.ext (by match a with | ⟨0, _⟩ => rfl)
theorem rows_second (r : Fin 65536) (j : Fin 128) (k : Fin 1024) : lidx_main_v7 (ix2 r j) k = ix2 r k :=
  funext fun a => Fin.ext (by match a with | ⟨0, _⟩ => rfl | ⟨1, _⟩ => rfl)
theorem weights_second (r : Fin 65536) (j : Fin 128) (k : Fin 1024) : idx_main_v6 (ridx_main_v7 (ix2 r j) k) = ix2 j k :=
  funext fun a => Fin.ext (by match a with | ⟨0, _⟩ => rfl | ⟨1, _⟩ => rfl)
theorem bias_second (r : Fin 65536) (j : Fin 128) : idx_main_v8 (idx_main_v9 (ix2 r j)) = ix1 j :=
  funext fun a => Fin.ext (by match a with | ⟨0, _⟩ => rfl)
theorem summed (r : Fin 65536) (j : Fin 128) : idx_main_v13 (ix1 r) j = ix2 r j :=
  funext fun a => Fin.ext (by match a with | ⟨0, _⟩ => rfl | ⟨1, _⟩ => rfl)

/-- The first batch's hidden array at `(r, j)`. -/
theorem hidden_first (x0 : FVec Ideal S65536x1024 .f32) (x2 : FVec Ideal S128x1024 .f32) (x3 : FVec Ideal S128 .f32)
    (r : Fin 65536) (j : Fin 128) : val_main_v5 (F := Ideal) x0 x2 x3 (ix2 r j) = hidden x0 x2 x3 r j := by
  rw [val_main_v5_apply, val_main_v4_apply, val_main_v1_apply, val_main_v3_apply, val_main_v2_apply, bias_first]
  simp only [val_main_v0_apply, rows_first, weights_first]
  rfl

/-- The second batch's hidden array at `(r, j)`. -/
theorem hidden_second (x1 : FVec Ideal S65536x1024 .f32) (x2 : FVec Ideal S128x1024 .f32) (x3 : FVec Ideal S128 .f32)
    (r : Fin 65536) (j : Fin 128) : val_main_v11 (F := Ideal) x1 x2 x3 (ix2 r j) = hidden x1 x2 x3 r j := by
  rw [val_main_v11_apply, val_main_v10_apply, val_main_v7_apply, val_main_v9_apply, val_main_v8_apply, bias_second]
  simp only [val_main_v6_apply, rows_second, weights_second]
  rfl

/-- The reference's result is the score of every row. -/
theorem result_eq (x0 x1 : FVec Ideal S65536x1024 .f32) (x2 : FVec Ideal S128x1024 .f32) (x3 : FVec Ideal S128 .f32) :
    val_main_v19 (F := Ideal) x0 x1 x2 x3 = score x0 x1 x2 x3 := by
  funext i
  obtain ⟨r, rfl⟩ : ∃ r : Fin 65536, i = ix1 r := ⟨i 0, eq_ix1 i⟩
  rw [val_main_v19_apply, val_main_v18_apply, val_main_cst_1_apply, val_main_v17_apply, val_main_v16_apply,
    val_main_cst_0_apply, val_main_v15_apply, val_main_v14_apply, val_main_v13_apply, val_main_cst_apply]
  have hs : ∀ j : Fin 128, val_main_v12 (F := Ideal) x0 x1 x2 x3 (idx_main_v13 (ix1 r) j)
      = hidden x0 x2 x3 r j * hidden x1 x2 x3 r j := fun j => by
    rw [summed, val_main_v12_apply, hidden_first, hidden_second]; rfl
  simp only [hs]
  show Ideal.div (Ideal.ofBits .f32 0x3F800000#32)
      (Ideal.ofBits .f32 0x3F800000#32 + Ideal.exp (-(Ideal.ofBits .f32 0x00000000#32 + ∑ j : Fin 128, hidden x0 x2 x3 r j * hidden x1 x2 x3 r j)))
    = Ideal.logistic (∑ j : Fin 128, hidden x0 x2 x3 r j * hidden x1 x2 x3 r j)
  rw [Ideal.ofBits_one_f32, Ideal.ofBits_zero_f32, zero_add]
  rfl

end Cert.ReferenceIdeal.Score

end
-- ==== Proof.KernelArray.lean ====
/-
  From the blocks the grid points write to the whole result array.

  Grid point `t` of 64 holds rows `1024·t … 1024·t + 1023` of each batch, the whole transposed weight matrix (which the program
  forms from `W` before the launch) and the whole bias, and writes entries `1024·t … 1024·t + 1023` of the result. Row `p` of
  its block is the score of row `1024·t + p`; the 64 blocks tile the 65536 entries; so the array ends as the score of every row.
-/
import proofs.«127948_j88802743812576_1_alg».proof.Proof.Gen.KernelIdeal.Value
import proofs.«127948_j88802743812576_1_alg».proof.Proof.KernelRow
import proofs.«127948_j88802743812576_1_alg».proof.Proof.PairScore
import Idealize.ShloMosaic.Lib.Pipeline.Value
import Idealize.ShloMosaic.Lib.ValueLayout
import Idealize.ShloMosaic.Lib.StableHlo.Run

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Idealize.ShloMosaic.StableHlo
open Cert.PairScore

variable (m : (ℓ : Loc nD τ sig) → Buf (Elt Ideal) ℓ) (ρ : Dev nD → PrngReg)

theorem zero1 : (![0] : Fin 1 → Nat) = fun _ => 0 := funext fun a => by fin_cases a; rfl
theorem zero2 : (![0, 0] : Fin 2 → Nat) = fun _ => 0 := funext fun a => by fin_cases a <;> rfl

/-- Where each window's block sits at point `t`: the batches' and the result's block index is `t`, the weights' and the
    bias's is zero (decided over the 64 points). -/
theorem where_blocks : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 1) = t.val :=
  (by decide +kernel : ∀ t : Fin grid0.N, _)

/-- The four blocks the body loads at point `t`, at their literal types. -/
abbrev rows1 (c : Dev nD) (t : Fin cfg0.N) : FVec Ideal S1024x1024 .f32 := iblk m c 0 t
abbrev rows2 (c : Dev nD) (t : Fin cfg0.N) : FVec Ideal S1024x1024 .f32 := iblk m c 1 t
abbrev wts (c : Dev nD) (t : Fin cfg0.N) : FVec Ideal S1024x128 .f32 := iblk m c 2 t
abbrev bias (c : Dev nD) (t : Fin cfg0.N) : FVec Ideal S128 .f32 := iblk m c 3 t

/-- The weights as the launch finds them: the transpose of the argument `W`. -/
theorem weights_entry (c : Dev nD) :
    (V m c main_v0 : S1024x128.Idx → EReal)
      = transpose S1024x128 [1, 0] (m ((c : Thread nD τ).loc main_arg2)) transposes_S128x1024_S1024x128_1_0 := by
  dsimp only [Gen.V, Gen.hostOps0]
  after_results

/-- Row `p`, feature `k` of the first batch's block at point `t` is row `1024·t + p` of the first argument. -/
theorem rows1_apply (c : Dev nD) (t : Fin cfg0.N) (p k : Fin 1024) (r : Fin 65536) (hr : r.val = 1024 * t.val + p.val) :
    rows1 m c t (ix2 p k) = (m ((c : Thread nD τ).loc main_arg0) : S65536x1024.Idx → EReal) (ix2 r k) := by
  obtain ⟨e0, e1, -⟩ := where_blocks t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

/-- The same for the second batch. -/
theorem rows2_apply (c : Dev nD) (t : Fin cfg0.N) (p k : Fin 1024) (r : Fin 65536) (hr : r.val = 1024 * t.val + p.val) :
    rows2 m c t (ix2 p k) = (m ((c : Thread nD τ).loc main_arg1) : S65536x1024.Idx → EReal) (ix2 r k) := by
  obtain ⟨-, -, e0, e1, -⟩ := where_blocks t
  show V m c main_arg1 (((cfg0.win 1).blk t).view.emb (ix2 p k)) = _
  rw [V_main_arg1]
  refine congrArg _ (funext fun a => Fin.ext ?_)
  match a with
  | ⟨0, _⟩ => show win0_1.index t (0 : Fin 2) * 1024 + 1 * p.val = r.val; rw [e0, hr]; omega
  | ⟨1, _⟩ => show win0_1.index t (1 : Fin 2) * 1024 + 1 * k.val = k.val; rw [e1]; omega

/-- The weights' block is the whole transposed matrix: its entry `(k, j)` is `W j k`. -/
theorem wts_apply (c : Dev nD) (t : Fin cfg0.N) (k : Fin 1024) (j : Fin 128) :
    wts m c t (ix2 k j) = (m ((c : Thread nD τ).loc main_arg2) : S128x1024.Idx → EReal) (ix2 j k) := by
  obtain ⟨-, -, -, -, e0, e1, -⟩ := where_blocks t
  show V m c main_v0 (((cfg0.win 2).blk t).view.emb (ix2 k j)) = _
  have hi : ((cfg0.win 2).blk t).view.emb (ix2 k j) = (ix2 k j : S1024x128.Idx) := funext fun a => Fin.ext (by
    match a with
    | ⟨0, _⟩ => show win0_2.index t (0 : Fin 2) * 1024 + 1 * k.val = k.val; rw [e0]; omega
    | ⟨1, _⟩ => show win0_2.index t (1 : Fin 2) * 128 + 1 * j.val = j.val; rw [e1]; omega)
  rw [hi, weights_entry]
  exact transpose_ix2_apply _ transposes_S128x1024_S1024x128_1_0 k j

/-- The bias's block is the whole bias. -/
theorem bias_apply (c : Dev nD) (t : Fin cfg0.N) (j : Fin 128) :
    bias m c t (ix1 j) = (m ((c : Thread nD τ).loc main_arg3) : S128.Idx → EReal) (ix1 j) := by
  obtain ⟨-, -, -, -, -, -, e0, -⟩ := where_blocks t
  show V m c main_arg3 (((cfg0.win 3).blk t).view.emb (ix1 j)) = _
  rw [V_main_arg3]
  refine congrArg _ (funext fun a => Fin.ext ?_)
  match a with
  | ⟨0, _⟩ => show win0_3.index t (0 : Fin 1) * 128 + 1 * j.val = j.val; rw [e0]; omega

/-- Row `p` of what point `t` stores is the score of row `1024·t + p`. -/
theorem point_row (c : Dev nD) (t : Fin cfg0.N) (p : Fin 1024) (r : Fin 65536) (hr : r.val = 1024 * t.val + p.val) :
    k0_pay1 (F := Ideal) (rows1 m c t) (rows2 m c t) (wts m c t) (bias m c t) (ix1 p)
      = score (m ((c : Thread nD τ).loc main_arg0)) (m ((c : Thread nD τ).loc main_arg1)) (m ((c : Thread nD τ).loc main_arg2))
          (m ((c : Thread nD τ).loc main_arg3)) (ix1 r) := by
  rw [Row.pay_apply]
  unfold PairScore.score PairScore.hidden
  refine congrArg Ideal.logistic (Finset.sum_congr rfl fun j _ => ?_)
  rw [bias_apply]
  simp only [rows1_apply m c t p _ r hr, rows2_apply m c t p _ r hr, wts_apply]

/-- What point `t` writes back is block `t` of the score array. -/
theorem flushed_eq (c : Dev nD) (t : Fin cfg0.N) :
    (dats m 0 c).flushed 4 t = ((cfg0.win 4).blk t).view.read (Elt Ideal)
      (score (m ((c : Thread nD τ).loc main_arg0)) (m ((c : Thread nD τ).loc main_arg1)) (m ((c : Thread nD τ).loc main_arg2))
        (m ((c : Thread nD τ).loc main_arg3))) := by
  rw [flushed4]
  unfold out0_4
  rw [View.canon_unit_zero zero1]
  simp only [View.ld_unit_zero (S := S1024x1024) zero2, View.ld_unit_zero (S := S1024x128) zero2, View.ld_unit_zero (S := S128) zero1]
  obtain ⟨-, -, -, -, -, -, -, e4⟩ := where_blocks t
  have ht : t.val < 64 := lt_of_lt_of_eq t.isLt N_0
  funext y
  have hy : (y 0).val < 1024 := (y 0).isLt
  show k0_pay1 (F := Ideal) (rows1 m c t) (rows2 m c t) (wts m c t) (bias m c t) y
    = score _ _ _ _ (((cfg0.win 4).blk t).view.emb y)
  refine (congrArg (k0_pay1 (F := Ideal) (rows1 m c t) (rows2 m c t) (wts m c t) (bias m c t)) (eq_ix1 y)).trans ?_
  refine (point_row m c t (y 0) ⟨1024 * t.val + (y 0).val, by omega⟩ rfl).trans ?_
  refine congrArg (score _ _ _ _) (funext fun a => Fin.ext ?_)
  match a with
  | ⟨0, _⟩ => show 1024 * t.val + (y 0).val = win0_4.index t (0 : Fin 1) * 1024 + 1 * (y 0).val; rw [e4]; omega

/-- An entry of the result array is in point `t`'s block iff it lies in the block's range. -/
theorem mem_block (t : Fin cfg0.N) (i : S65536.Idx) :
    i ∈ ((cfg0.win 4).blk t).view.set ↔ ∀ a : Fin 1, win0_4.index t a * S1024.size a ≤ (i a).val ∧ (i a).val < win0_4.index t a * S1024.size a + S1024.size a := by
  show i ∈ ((View.whole main_v1).slice (win0_4.rect t)).set ↔ _
  rw [View.set_slice_whole, Rect.mem_set_unit]
  exact Iff.rfl

/-- Every entry lies in the block of the point `i / 1024`. -/
theorem covered (i : S65536.Idx) : ∃ t : Fin cfg0.N, (cfg0.win 4).flush t = true ∧ i ∈ ((cfg0.win 4).blk t).view.set := by
  have hi : (i 0).val < 65536 := (i 0).isLt
  refine ⟨⟨(i 0).val / 1024, by rw [show cfg0.N = 64 from N_0]; omega⟩, flush0_4 _, ?_⟩
  rw [mem_block]
  obtain ⟨-, -, -, -, -, -, -, e4⟩ := where_blocks ⟨(i 0).val / 1024, by rw [show cfg0.N = 64 from N_0]; omega⟩
  intro a
  match a with
  | ⟨0, _⟩ =>
    show win0_4.index _ (0 : Fin 1) * 1024 ≤ (i 0).val ∧ (i 0).val < win0_4.index _ (0 : Fin 1) * 1024 + 1024
    rw [e4]
    show (i 0).val / 1024 * 1024 ≤ (i 0).val ∧ (i 0).val < (i 0).val / 1024 * 1024 + 1024
    omega

/-- The result array after the run is the score of every row. -/
theorem final (c : Dev nD) : (dats m 0 c).arrAt 4 cfg0.N
    = score (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed_eq m c t) covered

/-- The kernel's run, read: the result at the score of the arguments, the arguments unchanged. -/
theorem run : θ_run defs (onTc (τ := τ) (main (F := Ideal))) ⟨m, fun _ => 0, ρ⟩ fun r => ∀ c : Dev nD,
      r.2.mem ((c : Thread nD τ).loc main_v1)
        = score (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.KernelIdeal.Whole

end
-- ==== Proof.lean ====
/-
  Two batches of 65536 rows are scored pairwise: each row of `x₁` and of `x₂` goes through one shared layer
  `h(x) = tanh (x · Wᵀ + b)` with 128 hidden units, and row `r`'s score is `σ (∑ⱼ h(x₁) r j · h(x₂) r j)`, `σ` the logistic function.

  The kernel streams blocks of 1024 rows through a grid of 64 points, holding the transposed weights and the bias whole; the
  reference computes the same expression on whole arrays. Over the extended reals the kernel's narrowing of the matrix
  operands to bf16 is the identity, its product into a zero accumulator and the reference's contraction are one sum over the 1024
  features, its lane reduction and the reference's row sum are one sum over the 128 hidden units, and its logistic operation
  is by definition the reference's `1 / (1 + e^(-s))`. The two results are therefore one function of the arguments
  (`PairScore.score`), entry by entry, with no appeal to the inputs being finite.

  The kernel's idealization rewrote nothing, so it is the kernel's own text read over the extended reals.
-/
import proofs.«127948_j88802743812576_1_alg».proof.Defs
import proofs.«127948_j88802743812576_1_alg».proof.Proof.Gen.Kernel
import proofs.«127948_j88802743812576_1_alg».proof.Proof.Gen.Kernel.Skeleton
import proofs.«127948_j88802743812576_1_alg».proof.Proof.Gen.Kernel.Launch
import proofs.«127948_j88802743812576_1_alg».proof.Proof.Gen.Kernel.Points
import proofs.«127948_j88802743812576_1_alg».proof.Proof.Gen.Kernel.Frame
import proofs.«127948_j88802743812576_1_alg».proof.Proof.Gen.KernelIdeal
import proofs.«127948_j88802743812576_1_alg».proof.Proof.Gen.KernelIdeal.Skeleton
import proofs.«127948_j88802743812576_1_alg».proof.Proof.Gen.KernelIdeal.Launch
import proofs.«127948_j88802743812576_1_alg».proof.Proof.Gen.KernelIdeal.Points
import proofs.«127948_j88802743812576_1_alg».proof.Proof.Gen.KernelIdeal.Frame
import proofs.«127948_j88802743812576_1_alg».proof.Proof.Gen.KernelIdeal.Value
import proofs.«127948_j88802743812576_1_alg».proof.Proof.Gen.ReferenceIdeal
import proofs.«127948_j88802743812576_1_alg».proof.Proof.Gen.ReferenceIdeal.Run
import proofs.«127948_j88802743812576_1_alg».proof.Proof.Gen.ReferenceIdeal.Read
import proofs.«127948_j88802743812576_1_alg».proof.Proof.Gen.Pre_finite_inputs
import proofs.«127948_j88802743812576_1_alg».proof.Proof.PairScore
import proofs.«127948_j88802743812576_1_alg».proof.Proof.KernelRow
import proofs.«127948_j88802743812576_1_alg».proof.Proof.RefScore
import proofs.«127948_j88802743812576_1_alg».proof.Proof.KernelArray
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the score of every row of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v19_eq _ _ _ _).trans (Cert.ReferenceIdeal.Score.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
